-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S16x4096x1024 : Shape := ⟨3, ![16, 4096, 1024]⟩
abbrev S16x1024x4096 : Shape := ⟨3, ![16, 1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S16x4096x1024 : S_.BroadcastsInDim S16x4096x1024 (![] : Fin 0 → Fin S16x4096x1024.rank)
  reducesTo_S16x4096x1024_S_d0_1_2 : S16x4096x1024.ReducesTo [0, 1, 2] S_
  bcast_S_S16x1024x4096 : S_.BroadcastsInDim S16x1024x4096 (![] : Fin 0 → Fin S16x1024x4096.rank)
  reducesTo_S16x1024x4096_S_d0_1_2 : S16x1024x4096.ReducesTo [0, 1, 2] S_

variable [Facts]

def fn {F : FTy → Type} [FloatOps F] (main_arg0 : FVec F S4096x1024 .f32) (main_arg1 : IVec S4096 32) (main_arg2 : FVec F S16x4096x1024 .f32) (main_arg3 : FVec F S16x1024x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S16x4096x1024 .f32 := Host.absf main_arg2
  let main_cst_0 : FVec F S_ .f32 := constant S_ .f32 0x7F800000#32
  let main_v5 : FVec F S16x4096x1024 .f32 := broadcastInDim S16x4096x1024 ![] bcast_S_S16x4096x1024 main_cst_0
  let main_v6 : IVec S16x4096x1024 1 := cmpf .olt main_v4 main_v5
  let main_c_1 : IVec S_ 1 := constantI S_ 1 1#1
  let main_v7 : IVec S_ 1 := (fun x v => Host.reduce IntOp.andi x v reducesTo_S16x4096x1024_S_d0_1_2 h_S_) main_v6 main_c_1
  let main_v8 : IVec S_ 1 := andi main_v3 main_v7
  let main_v9 : FVec F S16x1024x4096 .f32 := Host.absf main_arg3
  let main_cst_2 : FVec F S_ .f32 := constant S_ .f32 0x7F800000#32
  let main_v10 : FVec F S16x1024x4096 .f32 := broadcastInDim S16x1024x4096 ![] bcast_S_S16x1024x4096 main_cst_2
  let main_v11 : IVec S16x1024x4096 1 := cmpf .olt main_v9 main_v10
  let main_c_3 : IVec S_ 1 := constantI S_ 1 1#1
  let main_v12 : IVec S_ 1 := (fun x v => Host.reduce IntOp.andi x v reducesTo_S16x1024x4096_S_d0_1_2 h_S_) main_v11 main_c_3
  let main_v13 : IVec S_ 1 := andi main_v8 main_v12
  main_v13
-- ==== Kernel.lean ====
abbrev S4096x1024 : Shape := ⟨2, ![4096, 1024]⟩
abbrev S4096 : Shape := ⟨1, ![4096]⟩
abbrev S16x4096x1024 : Shape := ⟨3, ![16, 4096, 1024]⟩
abbrev S16x1024x4096 : Shape := ⟨3, ![16, 1024, 4096]⟩
abbrev S_ : Shape := ⟨0, ![]⟩
abbrev S4096x1 : Shape := ⟨2, ![4096, 1]⟩
abbrev S16x256x1024 : Shape := ⟨3, ![16, 256, 1024]⟩
abbrev S1x256x1024 : Shape := ⟨3, ![1, 256, 1024]⟩
abbrev S1x2048x1024 : Shape := ⟨3, ![1, 2048, 1024]⟩
abbrev S1x1024x2048 : Shape := ⟨3, ![1, 1024, 2048]⟩
abbrev S256x1024 : Shape := ⟨2, ![256, 1024]⟩
abbrev S2048x1024 : Shape := ⟨2, ![2048, 1024]⟩
abbrev S256x2048 : Shape := ⟨2, ![256, 2048]⟩
abbrev S1024x2048 : Shape := ⟨2, ![1024, 2048]⟩

abbrev nBuf : Space → Nat
  | .hbm => 34
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S16x4096x1024, .f32⟩
  | .hbm, ⟨3, _⟩ => ⟨S16x1024x4096, .f32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S4096x1024, .f32⟩
  | .hbm, ⟨19, _⟩ => ⟨S16x256x1024, .f32⟩
  | .hbm, ⟨20, _⟩ => ⟨S16x256x1024, .bf16⟩
  | .hbm, ⟨21, _⟩ => ⟨S16x4096x1024, .bf16⟩
  | .hbm, ⟨22, _⟩ => ⟨S16x1024x4096, .bf16⟩
  | .hbm, ⟨23, _⟩ => ⟨S16x256x1024, .f32⟩
  | .hbm, ⟨24, _⟩ => ⟨S4096x1024, .f32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x256x1024, .f32⟩
  | .local _ .vmem, ⟨7, _⟩ => ⟨S1x256x1024, .f32⟩
  | .local _ .vmem, ⟨8, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1_0 : Ref sig .tc := ⟨.hbm, 5, rfl⟩
abbrev main_v0 : Ref sig .tc := ⟨.hbm, 6, rfl⟩
abbrev main_call1_v0 : Ref sig .tc := ⟨.hbm, 7, rfl⟩
abbrev main_call1_v1_0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_14 : BitVec 32 := 0#32
  let v19 : BitVec 1 := Scalar.cmpi .ne v18 c0_i32_14
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x1024_S16x256x1024 : S4096x1024.ShapeCasts S16x256x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S256x1024_S1x256x1024 : S256x1024.ShapeCasts S1x256x1024
  shapeCasts_S16x256x1024_S4096x1024 : S16x256x1024.ShapeCasts S4096x1024
  gather_S4096x1024_S4096x1_S4096x1024_1_0_n_n_0_1_11024_wf : GatherDims.WF S4096x1024 S4096x1 S4096x1024 [1] [0] [] [0] [] 1 ![1, 1024]
  dot_S256x1024_S2048x1024_S256x2048_1_1_0_0_n_n_wf : DotDims.WF S256x1024 S2048x1024 S256x2048 [1] [1] [0] [0] [] []
  dot_S256x2048_S1024x2048_S256x1024_1_1_0_0_n_n_wf : DotDims.WF S256x2048 S1024x2048 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x256x1024.size a
  hwx0_0 : ∀ i : grid0.Coords, EltTy.bits .bf16 = 32 ∨ (Rect.block (s := S16x256x1024) S1x256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S16x4096x1024.size a
  hwx0_1 : ∀ i : grid0.Coords, EltTy.bits .bf16 = 32 ∨ (Rect.block (s := S16x4096x1024) S1x2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S16x1024x4096.size a
  hwx0_2 : ∀ i : grid0.Coords, EltTy.bits .bf16 = 32 ∨ (Rect.block (s := S16x1024x4096) S1x1024x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S16x256x1024.size a
  hwx0_3 : ∀ i : grid0.Coords, EltTy.bits .f32 = 32 ∨ (Rect.block (s := S16x256x1024) S1x256x1024.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S4096x1024_S4096x1_S4096x1024_1_0_n_n_0_1_11024 : GatherDims S4096x1024 S4096x1 S4096x1024 where
  offsetDims := [1]
  collapsedSliceDims := [0]
  operandBatchingDims := []
  startIndicesBatchingDims := []
  startIndexMap := [0]
  indexVectorDim := 1
  sliceSizes := ![1, 1024]
  wf := gather_S4096x1024_S4096x1_S4096x1024_1_0_n_n_0_1_11024_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf

abbrev win0_0 : Pipeline.Window sig grid0 :=
  Pipeline.Window.ofSpec (Memref.whole main_v10) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S16x4096x1024 : Shape := ⟨3, ![16, 4096, 1024]⟩
abbrev S16x1024x4096 : Shape := ⟨3, ![16, 1024, 4096]⟩
abbrev S_ : Shape := ⟨0, ![]⟩
abbrev S4096x1 : Shape := ⟨2, ![4096, 1]⟩
abbrev S16x256x1024 : Shape := ⟨3, ![16, 256, 1024]⟩
abbrev S16x256x4096 : Shape := ⟨3, ![16, 256, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S16x4096x1024, .f32⟩
  | .hbm, ⟨3, _⟩ => ⟨S16x1024x4096, .f32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S4096x1, .i32⟩
  | .hbm, ⟨15, _⟩ => ⟨S4096x1024, .f32⟩
  | .hbm, ⟨16, _⟩ => ⟨S16x256x1024, .f32⟩
  | .hbm, ⟨17, _⟩ => ⟨S16x256x4096, .f32⟩
  | .hbm, ⟨18, _⟩ => ⟨S16x256x1024, .f32⟩
  | .hbm, ⟨19, _⟩ => ⟨S4096x1024, .f32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S4096x1, .i32⟩
  | .hbm, ⟨31, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1_0 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call1_v0 : Ref sig .tc := ⟨.hbm, 20, rfl⟩
abbrev main_call1_v1_0 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x1024_S16x256x1024 : S4096x1024.ShapeCasts S16x256x1024
  shapeCasts_S16x256x1024_S4096x1024 : S16x256x1024.ShapeCasts S4096x1024
  gather_S4096x1024_S4096x1_S4096x1024_1_0_n_n_0_1_11024_wf : GatherDims.WF S4096x1024 S4096x1 S4096x1024 [1] [0] [] [0] [] 1 ![1, 1024]
  dot_S16x256x1024_S16x4096x1024_S16x256x4096_2_2_1_1_0_0_wf : DotDims.WF S16x256x1024 S16x4096x1024 S16x256x4096 [2] [2] [1] [1] [0] [0]
  dot_S16x256x4096_S16x1024x4096_S16x256x1024_2_2_1_1_0_0_wf : DotDims.WF S16x256x4096 S16x1024x4096 S16x256x1024 [2] [2] [1] [1] [0] [0]

variable [Facts₀]

def comparator_i32_i32_d0 : BitVec 32 × BitVec 32 → BitVec 32 × BitVec 32 → BitVec 1 :=
  fun l r =>
    let v2 := IntOp.cmpi .slt l.1 r.1
    v2
def gather_S4096x1024_S4096x1_S4096x1024_1_0_n_n_0_1_11024 : GatherDims S4096x1024 S4096x1 S4096x1024 where
  offsetDims := [1]
  collapsedSliceDims := [0]
  operandBatchingDims := []
  startIndicesBatchingDims := []
  startIndexMap := [0]
  indexVectorDim := 1
  sliceSizes := ![1, 1024]
  wf := gather_S4096x1024_S4096x1_S4096x1024_1_0_n_n_0_1_11024_wf
def dot_S16x256x1024_S16x4096x1024_S16x256x4096_2_2_1_1_0_0 : DotDims S16x256x1024 S16x4096x1024 S16x256x4096 where
  lhsContracting := [2]
  rhsContracting := [2]
  lhsNonContracting := [1]
  rhsNonContracting := [1]
  lhsBatch := [0]
  rhsBatch := [0]
  wf := dot_S16x256x1024_S16x4096x1024_S16x256x4096_2_2_1_1_0_0_wf
def dot_S16x256x4096_S16x1024x4096_S16x256x1024_2_2_1_1_0_0 : DotDims S16x256x4096 S16x1024x4096 S16x256x1024 where
  lhsContracting := [2]
  rhsContracting := [2]
  lhsNonContracting := [1]
  rhsNonContracting := [1]
  lhsBatch := [0]
  rhsBatch := [0]
  wf := dot_S16x256x4096_S16x1024x4096_S16x256x1024_2_2_1_1_0_0_wf

class Facts : Prop extends Facts₀ where

variable [Facts]
-- ==== Proof.KernelSteps.lean ====
/-
  What one grid step of the kernel leaves behind, as values.

  The grid is (expert, half): 32 steps, step t working on expert t / 2 and on half t % 2 of the hidden axis. Each step
  reads three blocks, tokens x0 : [1, 256, 1024], first-layer weights x1 : [1, 2048, 1024], second-layer weights
  x2 : [1, 1024, 2048], and keeps a running total in a scratch buffer of shape [256, 1024]:

    first half  (t even): the scratch is set to zero, read back, and left at  zero + partial(x0, x1, x2);
    second half (t odd):  the scratch, holding what the step before left, is left at  previous + partial(x0, x1, x2),
                          and that new total is copied, with a unit axis in front, into the output block.

  Here "partial" and the two layouts are the three pure terms the body's stores carry (the skeleton's payloads), so each
  statement below is: the contents found after the step are that payload of the step's blocks. They hold at every float
  instance.
-/
import proofs.«161444_j86715389706430_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Steps

open Cert.KernelIdeal Cert.KernelIdeal.Gen

variable {F : FTy → Type} [FloatOps F]

/-- A rank-2 offset of zeros. -/
theorem zeros2 : (![0, 0] : Fin 2 → Nat) = fun _ => 0 := funext fun a => by fin_cases a <;> rfl
/-- A rank-3 offset of zeros. -/
theorem zeros3 : (![0, 0, 0] : Fin 3 → Nat) = fun _ => 0 := funext fun a => by fin_cases a <;> rfl

/-- FIRST HALF: the running total after the step is the update applied to the zero block (the zero block is stored,
    read back whole, and the update stored over it). -/
theorem total_first (c : Dev nD) (i : grid0.Coords) (a2 : Memref sig .tc .vmem S1x256x1024 .bf16) (h2 : a2.IsWhole)
    (a3 : Memref sig .tc .vmem S1x2048x1024 .bf16) (h3 : a3.IsWhole) (a4 : Memref sig .tc .vmem S1x1024x2048 .bf16) (h4 : a4.IsWhole)
    (a5 : Memref sig .tc .vmem S1x256x1024 .f32) (h5 : a5.IsWhole) (a6 : Memref sig .tc .vmem S256x1024 .f32) (h6 : a6.IsWhole)
    (hc0 : cond0_0 i) (hc1 : ¬cond0_1 i) (x0 : Vec F S1x256x1024 .bf16) (x1 : Vec F S1x2048x1024 .bf16) (x2 : Vec F S1x1024x2048 .bf16) :
    sout0_A_0 c i a2 h2 a3 h3 a4 h4 a5 h5 a6 h6 hc0 hc1 x0 x1 x2 = k0_pay2 x0 x1 x2 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S256x1024) zeros2, View.readCov_unit_zero (S := S256x1024) _ zeros2]
  simp only [View.readAt_eq_ld, h2.read_unread, h3.read_unread, h4.read_unread, View.ld_unit_zero (S := S1x256x1024) zeros3,
    View.ld_unit_zero (S := S1x2048x1024) zeros3, View.ld_unit_zero (S := S1x1024x2048) zeros3]

/-- SECOND HALF: the running total after the step is the update applied to the total `xs` the step before left. -/
theorem total_second (c : Dev nD) (i : grid0.Coords) (a2 : Memref sig .tc .vmem S1x256x1024 .bf16) (h2 : a2.IsWhole)
    (a3 : Memref sig .tc .vmem S1x2048x1024 .bf16) (h3 : a3.IsWhole) (a4 : Memref sig .tc .vmem S1x1024x2048 .bf16) (h4 : a4.IsWhole)
    (a5 : Memref sig .tc .vmem S1x256x1024 .f32) (h5 : a5.IsWhole) (a6 : Memref sig .tc .vmem S256x1024 .f32) (h6 : a6.IsWhole)
    (hc0 : ¬cond0_0 i) (hc1 : cond0_1 i) (x0 : Vec F S1x256x1024 .bf16) (x1 : Vec F S1x2048x1024 .bf16) (x2 : Vec F S1x1024x2048 .bf16) (xs : Vec F S256x1024 .f32) :
    sout0_B_0 c i a2 h2 a3 h3 a4 h4 a5 h5 a6 h6 hc0 hc1 x0 x1 x2 xs = k0_pay2 x0 x1 x2 xs := by
  unfold sout0_B_0
  rw [View.read_writes_eq_canon _ _ _ (scover0_B_0 c i a2 h2 a3 h3 a4 h4 a5 h5 a6 h6 hc0 hc1 x0 x1 x2 xs)]
  unfold kernelRun0_B
  dsimp only
  sl_unfold_words
  rw [View.canon_unit_zero zeros2]
  simp only [View.readAt_eq_ld, h2.read_unread, h3.read_unread, h4.read_unread, h6.read_unread,
    View.ld_unit_zero (S := S1x256x1024) zeros3, View.ld_unit_zero (S := S1x2048x1024) zeros3,
    View.ld_unit_zero (S := S1x1024x2048) zeros3, View.ld_unit_zero (S := S256x1024) zeros2]

/-- SECOND HALF: the output block after the step is that same new total, read back from the scratch and given its unit
    axis. -/
theorem block_second (c : Dev nD) (i : grid0.Coords) (a2 : Memref sig .tc .vmem S1x256x1024 .bf16) (h2 : a2.IsWhole)
    (a3 : Memref sig .tc .vmem S1x2048x1024 .bf16) (h3 : a3.IsWhole) (a4 : Memref sig .tc .vmem S1x1024x2048 .bf16) (h4 : a4.IsWhole)
    (a5 : Memref sig .tc .vmem S1x256x1024 .f32) (h5 : a5.IsWhole) (a6 : Memref sig .tc .vmem S256x1024 .f32) (h6 : a6.IsWhole)
    (hc0 : ¬cond0_0 i) (hc1 : cond0_1 i) (x0 : Vec F S1x256x1024 .bf16) (x1 : Vec F S1x2048x1024 .bf16) (x2 : Vec F S1x1024x2048 .bf16) (xs : Vec F S256x1024 .f32) :
    out0_B_3 c i a2 h2 a3 h3 a4 h4 a5 h5 a6 h6 hc0 hc1 x0 x1 x2 xs = k0_pay3 (k0_pay2 x0 x1 x2 xs) := by
  unfold out0_B_3
  rw [View.read_writes_eq_canon _ _ _ (cover0_B_3 c i a2 h2 a3 h3 a4 h4 a5 h5 a6 h6 hc0 hc1 x0 x1 x2 xs)]
  unfold kernelRun0_B
  dsimp only
  sl_unfold_words
  rw [View.canon_unit_zero zeros3, View.readCov_unit_zero (S := S256x1024) _ zeros2]
  simp only [View.readAt_eq_ld, h2.read_unread, h3.read_unread, h4.read_unread, h6.read_unread,
    View.ld_unit_zero (S := S1x256x1024) zeros3, View.ld_unit_zero (S := S1x2048x1024) zeros3,
    View.ld_unit_zero (S := S1x1024x2048) zeros3, View.ld_unit_zero (S := S256x1024) zeros2]

end Cert.KernelIdeal.Steps

end
-- ==== Proof.LibTransposedDot.lean ====
/-
  A matrix product whose right operand is contracted on its SECOND axis, read at coordinates.

  `DotDims.transposedRhs M K N` are the dimension numbers of an `M×K` by `N×K` product: both operands are contracted on
  their second axis, no batch axis: the left operand times the transpose of the right. At the ideal instance such a product,
  whether it is the kernel's `tpu.matmul` into a zero accumulator or the host's `dot_general`, is at the output index
  `(r, c)` the sum over `k : Fin K` of `A (r, k) * B (c, k)` on the extended reals.
-/
import Idealize.ShloMosaic.Lib.ValueIdx
import Idealize.ShloMosaic.PureOps.Ideal.Laws

noncomputable section

open scoped BigOperators

namespace Idealize.ShloMosaic.TransposedDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl j _).trans hk

/-- The right operand's index at output index `j` and contraction position `k` is `(j 1, k)`. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl j _).trans hk

/-- The kernel's product into a zero accumulator, at an output index: the sum over the shared axis. -/
theorem matmul_zero_apply (prec : Option ContractPrecision) (A : FVec Ideal ⟨2, ![M, K]⟩ .f32) (B : FVec Ideal ⟨2, ![N, K]⟩ .f32)
    (j : (⟨2, ![M, N]⟩ : Shape).Idx) :
    FloatOps.matmul (DotDims.transposedRhs M K N) prec A B (constant ⟨2, ![M, N]⟩ .f32 0x00000000#32) j
      = ∑ k : Fin K, A (ix2 (j 0) k) * B (ix2 (j 1) k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![N, K]⟩ .f32) (j : (⟨2, ![M, N]⟩ : Shape).Idx) :
    FloatOps.dotGeneral (DotDims.transposedRhs M K N) prec sched A B j = ∑ k : Fin K, A (ix2 (j 0) k) * B (ix2 (j 1) k) := by
  rw [Ideal.dotGeneral_apply, ← Equiv.sum_comp (contrEquiv1 (DotDims.transposedRhs M K N) K rfl rfl).symm]
  refine Finset.sum_congr rfl fun k _ => ?_
  rw [lhsIdx_eq, rhsIdx_eq]
  rfl

end Idealize.ShloMosaic.TransposedDot

end
-- ==== Proof.LibTransposedDotAny.lean ====
/-
  A matrix product whose right operand is contracted on its SECOND axis, into a zero accumulator, read at coordinates at any
  two operand formats.

  At the ideal instance a change of float format is the identity, so the kernel's `tpu.matmul` of operands narrowed to
  another format (bf16, say) into a zero f32 accumulator is, at the output index `(r, c)`, the same sum over `k : Fin K` of
  `A (r, k) * B (c, k)` on the extended reals as the product of f32 operands. The dimension numbers are
  `DotDims.transposedRhs M K N`: an `M×K` by `N×K` product, both operands contracted on their second axis, no batch axis.
-/
import proofs.«161444_j86715389706430_1_alg».proof.Proof.LibTransposedDot

noncomputable section

open scoped BigOperators

namespace Idealize.ShloMosaic.TransposedDot

open Idealize.ShloMosaic Idealize.ShloMosaic.ValueIdx

variable (M K N : Nat)

/-- The kernel's product into a zero accumulator at any two operand formats, at an output index: the sum over the shared
    axis. -/
theorem matmul_zero_apply_any {φ₁ φ₂ : FTy} (prec : Option ContractPrecision) (A : FVec Ideal ⟨2, ![M, K]⟩ φ₁)
    (B : FVec Ideal ⟨2, ![N, K]⟩ φ₂) (j : (⟨2, ![M, N]⟩ : Shape).Idx) :
    FloatOps.matmul (DotDims.transposedRhs M K N) prec A B (constant ⟨2, ![M, N]⟩ .f32 0x00000000#32) j
      = ∑ k : Fin K, A (ix2 (j 0) k) * B (ix2 (j 1) k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]
  rfl

end Idealize.ShloMosaic.TransposedDot

end
-- ==== Proof.KernelUpdate.lean ====
/-
  One grid step's arithmetic, read entry by entry on the extended reals.

  A step holds a token block x0 : [1, 256, 1024], a block of 2048 first-layer rows x1 : [1, 2048, 1024] and the matching
  2048 columns of the second layer x2 : [1, 1024, 2048]. It forms the hidden activations of those 2048 units,
  h(r, q) = Σ_i x0(0,r,i) · x1(0,q,i), sends them through the second layer, Σ_q h(r,q) · x2(0,o,q), and adds the result to
  the running total. At the ideal values the narrowing of the activations to a shorter format is the identity and both
  products into a zero accumulator are plain sums, so entry (r, o) of the update is

      total(r, o) + Σ_{q < 2048} ( Σ_{i < 1024} x0(0,r,i) · x1(0,q,i) ) · x2(0,o,q).

  The zero block is 0 at every entry, and the output block is the total with a unit axis in front.
-/
import proofs.«161444_j86715389706430_1_alg».proof.Proof.Gen.KernelIdeal.Skeleton
import proofs.«161444_j86715389706430_1_alg».proof.Proof.LibTransposedDotAny
import Idealize.ShloMosaic.Lib.Pipeline.Value
import Idealize.ShloMosaic.Lib.ValueIdx
import Idealize.ShloMosaic.Lib.ValueLayout
import Idealize.ShloMosaic.PureOps.Ideal.Laws

noncomputable section

open scoped BigOperators

open Idealize.ShloMosaic Idealize.ShloMosaic.ValueIdx

namespace Cert.KernelIdeal.Update

open Cert.KernelIdeal Cert.KernelIdeal.Gen

/-- The first product's dimension numbers are those of a [256, 1024] by [2048, 1024] product, rows against rows. -/
theorem firstDims : dot_S256x1024_S2048x1024_S256x2048_1_1_0_0_n_n = DotDims.transposedRhs 256 1024 2048 := rfl
/-- The second product's are those of a [256, 2048] by [1024, 2048] product, rows against rows. -/
theorem secondDims : dot_S256x2048_S1024x2048_S256x1024_1_1_0_0_n_n = DotDims.transposedRhs 256 2048 1024 := rfl

/-- The zero block is zero at every entry. -/
theorem zero_apply (j : S256x1024.Idx) : k0_pay1 (F := Ideal) j = 0 := by
  unfold k0_pay1
  rw [shapeCast_self]
  exact Ideal.ofBits_zero_f32

/-- The hidden activations of the step's 2048 units, entry (r, q): row r of the tokens against row q of the weights. -/
theorem hidden_apply (x0 : FVec Ideal S1x256x1024 .bf16) (x1 : FVec Ideal S1x2048x1024 .bf16) (r : Fin 256) (q : Fin 2048) :
    matmul dot_S256x1024_S2048x1024_S256x2048_1_1_0_0_n_n none (shapeCast S256x1024 x0 shapeCasts_S1x256x1024_S256x1024)
        (shapeCast S2048x1024 x1 shapeCasts_S1x2048x1024_S2048x1024) (constant (F := Ideal) S256x2048 .f32 0x00000000#32) (ix2 r q)
      = ∑ i : Fin 1024, x0 (ix3 (0 : Fin 1) r i) * x1 (ix3 (0 : Fin 1) q i) := by
  rw [firstDims]
  refine (TransposedDot.matmul_zero_apply_any 256 1024 2048 none _ _ (ix2 r q)).trans ?_
  refine Finset.sum_congr rfl fun i _ => ?_
  rw [shapeCast_1ab_ab_apply, shapeCast_1ab_ab_apply]

/-- THE UPDATE at entry (r, o): the total there plus the step's 2048 second-layer terms. -/
theorem update_apply (x0 : FVec Ideal S1x256x1024 .bf16) (x1 : FVec Ideal S1x2048x1024 .bf16) (x2 : FVec Ideal S1x1024x2048 .bf16)
    (tot : FVec Ideal S256x1024 .f32) (r : Fin 256) (o : Fin 1024) :
    k0_pay2 (F := Ideal) x0 x1 x2 tot (ix2 r o)
      = tot (ix2 r o) + ∑ q : Fin 2048, (∑ i : Fin 1024, x0 (ix3 (0 : Fin 1) r i) * x1 (ix3 (0 : Fin 1) q i)) * x2 (ix3 (0 : Fin 1) o q) := by
  unfold k0_pay2
  rw [shapeCast_self]
  refine (addf_apply _ _ _).trans ?_
  refine congrArg (tot (ix2 r o) + ·) ?_
  rw [secondDims]
  refine (TransposedDot.matmul_zero_apply_any 256 2048 1024 none _ _ (ix2 r o)).trans ?_
  refine Finset.sum_congr rfl fun q _ => ?_
  rw [shapeCast_1ab_ab_apply]
  refine congrArg (· * x2 (ix3 (0 : Fin 1) o q)) ?_
  exact hidden_apply x0 x1 r q

/-- The output block is the total with a unit axis in front: entry (0, r, o) is the total's entry (r, o). -/
theorem block_apply (tot : FVec Ideal S256x1024 .f32) (u : Fin 1) (r : Fin 256) (o : Fin 1024) :
    k0_pay3 (F := Ideal) tot (ix3 u r o) = tot (ix2 r o) := by
  unfold k0_pay3
  exact shapeCast_ab_1ab_apply tot _ u r o

end Cert.KernelIdeal.Update

end
-- ==== Proof.LibSumSplit.lean ====
import Mathlib.Algebra.BigOperators.Fin
import Mathlib.Logic.Equiv.Fin.Basic

/-!
A sum over `Fin N` with `N = a · b` is the double sum over the `a` consecutive runs of `b` indices:
index `b · t + q` is the `q`-th of run `t`.
-/

open scoped BigOperators

namespace Cert.SumSplit

/-- Index `b · t + q` of run `t` lies below `a · b`. -/
theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

/-- THE SPLIT: `∑ n < a·b, f n = ∑ t < a, ∑ q < b, f (b·t + q)`. -/
theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.GroupedSpec.lean ====
/-
  The two-layer grouped product as ONE function of three arrays, and the law that lets it be accumulated in two steps.

  Tokens come grouped by expert: X is [16, 256, 1024] (expert, slot, input feature). Expert e owns a first-layer weight
  matrix W1(e) of shape [4096, 1024] and a second-layer matrix W2(e) of shape [1024, 4096]. With no activation in between,
  slot c of expert e is sent to

      y(e, c, o) = Σ_{h < 4096} ( Σ_{i < 1024} X(e,c,i) · W1(e,h,i) ) · W2(e,o,h).

  The hidden axis of length 4096 is two runs of 2048 consecutive units, unit 2048·k + q being the q-th of run k. The sum
  over the hidden axis is the first run's partial sum plus the second's, and a running total started at zero reaches it as
  (0 + P₀) + P₁. On the extended reals addition is commutative and associative with 0 neutral, so this holds for every
  value of the arrays, the infinite ones included: nothing here asks for finiteness.
-/
import Idealize.ShloMosaic.PureOps.Ideal
import Idealize.ShloMosaic.Lib.ValueIdx
import proofs.«161444_j86715389706430_1_alg».proof.Proof.LibSumSplit

noncomputable section

open scoped BigOperators

namespace Cert.Grouped

open Idealize.ShloMosaic Idealize.ShloMosaic.ValueIdx

/-- Grouped tokens, and the grouped result: [expert, slot, feature]. -/
abbrev sTok : Shape := ⟨3, ![16, 256, 1024]⟩
/-- First-layer weights: [expert, hidden unit, input feature]. -/
abbrev sW1 : Shape := ⟨3, ![16, 4096, 1024]⟩
/-- Second-layer weights: [expert, output feature, hidden unit]. -/
abbrev sW2 : Shape := ⟨3, ![16, 1024, 4096]⟩

/-- The first layer: hidden unit h of slot c of expert e, the row X(e,c,·) against the row W1(e,h,·). -/
def hid (X : sTok.Idx → EReal) (W1 : sW1.Idx → EReal) (e : Fin 16) (c : Fin 256) (h : Fin 4096) : EReal :=
  ∑ i : Fin 1024, X (ix3 e c i) * W1 (ix3 e h i)

/-- One term of the second layer's sum: hidden unit h's activation times its weight towards output feature o. -/
def term (X : sTok.Idx → EReal) (W1 : sW1.Idx → EReal) (W2 : sW2.Idx → EReal) (e : Fin 16) (c : Fin 256) (o : Fin 1024)
    (h : Fin 4096) : EReal :=
  hid X W1 e c h * W2 (ix3 e o h)

/-- THE RESULT: y(e, c, o), the sum of the 4096 terms. -/
def out (X : sTok.Idx → EReal) (W1 : sW1.Idx → EReal) (W2 : sW2.Idx → EReal) : sTok.Idx → EReal :=
  fun j => ∑ h : Fin 4096, term X W1 W2 (j 0) (j 1) (j 2) h

/-- Hidden unit q of run k: unit 2048·k + q. -/
def unitOf (k : Fin 2) (q : Fin 2048) : Fin 4096 :=
  ⟨2048 * k.val + q.val, SumSplit.lt_of_run (a := 2) (b := 2048) rfl k q⟩

theorem unitOf_val (k : Fin 2) (q : Fin 2048) : (unitOf k q).val = 2048 * k.val + q.val := rfl

/-- The partial sum of run k: its 2048 terms. -/
def part (X : sTok.Idx → EReal) (W1 : sW1.Idx → EReal) (W2 : sW2.Idx → EReal) (e : Fin 16) (c : Fin 256) (o : Fin 1024)
    (k : Fin 2) : EReal :=
  ∑ q : Fin 2048, term X W1 W2 e c o (unitOf k q)

/-- The result is the running total (0 + P₀) + P₁ of the two runs' partial sums. -/
theorem out_eq_parts (X : sTok.Idx → EReal) (W1 : sW1.Idx → EReal) (W2 : sW2.Idx → EReal) (e : Fin 16) (c : Fin 256)
    (o : Fin 1024) :
    out X W1 W2 (ix3 e c o) = (0 + part X W1 W2 e c o 0) + part X W1 W2 e c o 1 := by
  show ∑ h : Fin 4096, term X W1 W2 e c o h = _
  rw [SumSplit.sum_split 2 2048 4096 rfl, Fin.sum_univ_two, zero_add]
  rfl

end Cert.Grouped

end
-- ==== Proof.KernelWhole.lean ====
/-
  From grid steps to the whole result array.

  Step t of the 32 works on expert t / 2 and on half t % 2 of the hidden axis. Its token block is rows (t / 2, ·, ·) of the
  grouped tokens; its first-layer block is hidden units 2048·(t % 2) … 2048·(t % 2) + 2047 of that expert; its second-layer
  block is the same units' columns. So the step's 2048 second-layer terms are exactly the partial sum of run t % 2 of the
  grouped product at expert t / 2, and after an even step and the odd step that follows it the running total is
  (0 + P₀) + P₁: the grouped product itself. Only odd steps write their output block back, step 2·e + 1 to rows
  (e, ·, ·) of the result: sixteen blocks that tile it. Hence the result array ends holding the grouped product of the
  three arrays as the kernel finds them.
-/
import proofs.«161444_j86715389706430_1_alg».proof.Proof.KernelSteps
import proofs.«161444_j86715389706430_1_alg».proof.Proof.KernelUpdate
import proofs.«161444_j86715389706430_1_alg».proof.Proof.GroupedSpec
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ)

/-- The three arrays as the kernel finds them: grouped tokens, first-layer and second-layer weights. -/
abbrev tok (c : Dev nD) : FVec Ideal S16x256x1024 .bf16 := V m c main_v10
abbrev w1 (c : Dev nD) : FVec Ideal S16x4096x1024 .bf16 := V m c main_v11
abbrev w2 (c : Dev nD) : FVec Ideal S16x1024x4096 .bf16 := V m c main_v12

/-- The three blocks step t reads. -/
abbrev tokBlk (c : Dev nD) (t : Fin cfg0.N) : FVec Ideal S1x256x1024 .bf16 := iblk m c 0 t
abbrev w1Blk (c : Dev nD) (t : Fin cfg0.N) : FVec Ideal S1x2048x1024 .bf16 := iblk m c 1 t
abbrev w2Blk (c : Dev nD) (t : Fin cfg0.N) : FVec Ideal S1x1024x2048 .bf16 := iblk m c 2 t

/-- Step t's expert, -/
def expertOf (t : Fin cfg0.N) : Fin 16 := ⟨t.val / 2, by have hN : cfg0.N = 32 := N_0; have := t.isLt; omega⟩
/-- and its half of the hidden axis. -/
def halfOf (t : Fin cfg0.N) : Fin 2 := ⟨t.val % 2, by omega⟩

/-- The block index of every window at every step, decided over the grid. -/
theorem blockIndex : ∀ t : Fin cfg0.N,
    (win0_0.index t (0 : Fin 3) = t.val / 2 ∧ win0_0.index t (1 : Fin 3) = 0 ∧ win0_0.index t (2 : Fin 3) = 0)
    ∧ (win0_1.index t (0 : Fin 3) = t.val / 2 ∧ win0_1.index t (1 : Fin 3) = t.val % 2 ∧ win0_1.index t (2 : Fin 3) = 0)
    ∧ (win0_2.index t (0 : Fin 3) = t.val / 2 ∧ win0_2.index t (1 : Fin 3) = 0 ∧ win0_2.index t (2 : Fin 3) = t.val % 2)
    ∧ (win0_3.index t (0 : Fin 3) = t.val / 2 ∧ win0_3.index t (1 : Fin 3) = 0 ∧ win0_3.index t (2 : Fin 3) = 0) :=
  (by decide +kernel : ∀ t : Fin grid0.N, _)

/-- The token block is rows (expert, ·, ·) of the tokens. -/
theorem tokBlk_apply (c : Dev nD) (t : Fin cfg0.N) (r : Fin 256) (i : Fin 1024) :
    tokBlk m c t (ix3 (0 : Fin 1) r i) = tok m c (ix3 (expertOf t) r i) := by
  obtain ⟨⟨e0, e1, e2⟩, -, -, -⟩ := blockIndex t
  show V m c main_v10 (((cfg0.win 0).blk t).view.emb (ix3 (0 : Fin 1) r i)) = V m c main_v10 (ix3 (expertOf t) r i)
  refine congrArg (V m c main_v10) (funext fun a => Fin.ext ?_)
  match a with
  | ⟨0, _⟩ => show win0_0.index t (0 : Fin 3) * 1 + 1 * 0 = t.val / 2; omega
  | ⟨1, _⟩ => show win0_0.index t (1 : Fin 3) * 256 + 1 * r.val = r.val; omega
  | ⟨2, _⟩ => show win0_0.index t (2 : Fin 3) * 1024 + 1 * i.val = i.val; omega

/-- The first-layer block is the step's half of the expert's hidden units. -/
theorem w1Blk_apply (c : Dev nD) (t : Fin cfg0.N) (q : Fin 2048) (i : Fin 1024) :
    w1Blk m c t (ix3 (0 : Fin 1) q i) = w1 m c (ix3 (expertOf t) (Grouped.unitOf (halfOf t) q) i) := by
  obtain ⟨-, ⟨e0, e1, e2⟩, -, -⟩ := blockIndex t
  show V m c main_v11 (((cfg0.win 1).blk t).view.emb (ix3 (0 : Fin 1) q i)) = V m c main_v11 (ix3 (expertOf t) (Grouped.unitOf (halfOf t) q) i)
  refine congrArg (V m c main_v11) (funext fun a => Fin.ext ?_)
  match a with
  | ⟨0, _⟩ => show win0_1.index t (0 : Fin 3) * 1 + 1 * 0 = t.val / 2; omega
  | ⟨1, _⟩ => show win0_1.index t (1 : Fin 3) * 2048 + 1 * q.val = 2048 * (t.val % 2) + q.val; omega
  | ⟨2, _⟩ => show win0_1.index t (2 : Fin 3) * 1024 + 1 * i.val = i.val; omega

/-- The second-layer block is the same units' columns. -/
theorem w2Blk_apply (c : Dev nD) (t : Fin cfg0.N) (o : Fin 1024) (q : Fin 2048) :
    w2Blk m c t (ix3 (0 : Fin 1) o q) = w2 m c (ix3 (expertOf t) o (Grouped.unitOf (halfOf t) q)) := by
  obtain ⟨-, -, ⟨e0, e1, e2⟩, -⟩ := blockIndex t
  show V m c main_v12 (((cfg0.win 2).blk t).view.emb (ix3 (0 : Fin 1) o q)) = V m c main_v12 (ix3 (expertOf t) o (Grouped.unitOf (halfOf t) q))
  refine congrArg (V m c main_v12) (funext fun a => Fin.ext ?_)
  match a with
  | ⟨0, _⟩ => show win0_2.index t (0 : Fin 3) * 1 + 1 * 0 = t.val / 2; omega
  | ⟨1, _⟩ => show win0_2.index t (1 : Fin 3) * 1024 + 1 * o.val = o.val; omega
  | ⟨2, _⟩ => show win0_2.index t (2 : Fin 3) * 2048 + 1 * q.val = 2048 * (t.val % 2) + q.val; omega

/-- Step t's 2048 second-layer terms at (r, o) are the partial sum of its run at its expert. -/
theorem stepTerms (c : Dev nD) (t : Fin cfg0.N) (r : Fin 256) (o : Fin 1024) :
    (∑ q : Fin 2048, (∑ i : Fin 1024, tokBlk m c t (ix3 (0 : Fin 1) r i) * w1Blk m c t (ix3 (0 : Fin 1) q i)) * w2Blk m c t (ix3 (0 : Fin 1) o q))
      = Grouped.part (tok m c) (w1 m c) (w2 m c) (expertOf t) r o (halfOf t) := by
  unfold Grouped.part Grouped.term Grouped.hid
  refine Finset.sum_congr rfl fun q _ => ?_
  rw [w2Blk_apply]
  refine congrArg (· * w2 m c (ix3 (expertOf t) o (Grouped.unitOf (halfOf t) q))) ?_
  refine Finset.sum_congr rfl fun i _ => ?_
  rw [tokBlk_apply, w1Blk_apply]

/-- After an even step the running total is the update of the zero block by the step's blocks. -/
theorem total_even (c : Dev nD) (t : Fin cfg0.N) (h0 : t.val % 2 = 0) :
    (outsAt0 m c t.val t.isLt).2 = k0_pay2 (F := Ideal) (tokBlk m c t) (w1Blk m c t) (w2Blk m c t) (k0_pay1 (F := Ideal)) := by
  have h1 : ¬t.val % 2 = 1 := by omega
  rw [outsAt0_A m c t h0 h1]
  dsimp only
  exact Steps.total_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- After an odd step the output block is the update, by the step's blocks, of the total the step before left, with its
    unit axis. -/
theorem block_odd (c : Dev nD) (t : Fin cfg0.N) (h1 : t.val % 2 = 1) :
    (outsAt0 m c t.val t.isLt).1 = k0_pay3 (F := Ideal) (k0_pay2 (F := Ideal) (tokBlk m c t) (w1Blk m c t) (w2Blk m c t)
      (outsAt0 m c (t.val - 1) (Nat.lt_of_le_of_lt (Nat.sub_le _ _) t.isLt)).2) := by
  have h0 : ¬t.val % 2 = 0 := by omega
  rw [outsAt0_B m c t h0 h1]
  dsimp only
  exact Steps.block_second (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- THE TWO STEPS TOGETHER: after an odd step, entry (0, r, o) of the output block is the grouped product at
    (expert, r, o). -/
theorem block_odd_apply (c : Dev nD) (t : Fin cfg0.N) (h1 : t.val % 2 = 1) (u : Fin 1) (r : Fin 256) (o : Fin 1024) :
    (outsAt0 m c t.val t.isLt).1 (ix3 u r o) = Grouped.out (tok m c) (w1 m c) (w2 m c) (ix3 (expertOf t) r o) := by
  have hN : cfg0.N = 32 := N_0
  have hlt : t.val - 1 < cfg0.N := Nat.lt_of_le_of_lt (Nat.sub_le _ _) t.isLt
  have hprev : (⟨t.val - 1, hlt⟩ : Fin cfg0.N).val % 2 = 0 := by show (t.val - 1) % 2 = 0; omega
  have eE : expertOf ⟨t.val - 1, hlt⟩ = expertOf t := Fin.ext (by show (t.val - 1) / 2 = t.val / 2; omega)
  have eH0 : halfOf ⟨t.val - 1, hlt⟩ = 0 := Fin.ext (by show (t.val - 1) % 2 = 0; omega)
  have eH1 : halfOf t = 1 := Fin.ext (by show t.val % 2 = 1; omega)
  rw [block_odd m c t h1]
  refine (Update.block_apply _ u r o).trans ?_
  refine (Update.update_apply _ _ _ _ r o).trans ?_
  rw [stepTerms m c t r o, total_even m c ⟨t.val - 1, hlt⟩ hprev]
  refine (congrArg (· + Grouped.part (tok m c) (w1 m c) (w2 m c) (expertOf t) r o (halfOf t)) (Update.update_apply _ _ _ _ r o)).trans ?_
  rw [stepTerms m c ⟨t.val - 1, hlt⟩ r o, Update.zero_apply, eE, eH0, eH1]
  exact (Grouped.out_eq_parts (tok m c) (w1 m c) (w2 m c) (expertOf t) r o).symm

/-- WHAT AN ODD STEP WRITES BACK is its block of the grouped product of the three arrays. -/
theorem flushed_eq (c : Dev nD) (t : Fin cfg0.N) (hf : (cfg0.win 3).flush t = true) :
    (dats m 0 c).flushed 3 t = ((cfg0.win 3).blk t).view.read (Elt Ideal) (Grouped.out (tok m c) (w1 m c) (w2 m c)) := by
  have h1 : t.val % 2 = 1 := (flush0_3 t).mp hf
  obtain ⟨-, -, -, ⟨e0, e1, e2⟩⟩ := blockIndex t
  show (cfg0.win 3).cut (grid0.coords t) ((dats m 0 c).after 3 t) = _
  rw [after0_3]
  funext j
  obtain ⟨u, r, o, rfl⟩ : ∃ (u : Fin 1) (r : Fin 256) (o : Fin 1024), j = ix3 u r o := ⟨j 0, j 1, j 2, eq_ix3 j⟩
  show (outsAt0 m c t.val t.isLt).1 (ix3 u r o) = Grouped.out (tok m c) (w1 m c) (w2 m c) (((cfg0.win 3).blk t).view.emb (ix3 u r o))
  rw [block_odd_apply m c t h1 u r o]
  refine congrArg (Grouped.out (tok m c) (w1 m c) (w2 m c)) (funext fun a => Fin.ext ?_)
  have hu : u.val = 0 := by omega
  match a with
  | ⟨0, _⟩ => show t.val / 2 = win0_3.index t (0 : Fin 3) * 1 + 1 * u.val; omega
  | ⟨1, _⟩ => show r.val = win0_3.index t (1 : Fin 3) * 256 + 1 * r.val; omega
  | ⟨2, _⟩ => show o.val = win0_3.index t (2 : Fin 3) * 1024 + 1 * o.val; omega

/-- An index of the result is in step t's block iff each coordinate is in the block's range on its axis. -/
theorem mem_blk (t : Fin cfg0.N) (i : S16x256x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v13).slice (win0_3.rect t)).set ↔ _
  rw [View.set_slice_whole, Rect.mem_set_unit]
  exact Iff.rfl

/-- THE RESULT ARRAY after the run is the grouped product of the three arrays as the kernel finds them: rows (e, ·, ·)
    are written back by step 2·e + 1. -/
theorem final (c : Dev nD) : (dats m 0 c).arrAt 3 cfg0.N = Grouped.out (tok m c) (w1 m c) (w2 m c) :=
  (dats m 0 c).arrAt_eq_of_cover 3 (Grouped.out (tok m c) (w1 m c) (w2 m c)) (flushed_eq m c) fun i => by
    have hN : cfg0.N = 32 := N_0
    have hi0 : (i 0).val < 16 := (i 0).isLt
    have hi1 : (i 1).val < 256 := (i 1).isLt
    have hi2 : (i 2).val < 1024 := (i 2).isLt
    have hlt : 2 * (i 0).val + 1 < cfg0.N := by omega
    refine ⟨⟨2 * (i 0).val + 1, hlt⟩, (flush0_3 _).mpr (by show (2 * (i 0).val + 1) % 2 = 1; omega), ?_⟩
    obtain ⟨-, -, -, ⟨e0, e1, e2⟩⟩ := blockIndex ⟨2 * (i 0).val + 1, hlt⟩
    have e0' : win0_3.index ⟨2 * (i 0).val + 1, hlt⟩ (0 : Fin 3) = (i 0).val := by rw [e0]; show (2 * (i 0).val + 1) / 2 = (i 0).val; omega
    rw [mem_blk]
    intro a
    match a with
    | ⟨0, _⟩ => show win0_3.index ⟨2 * (i 0).val + 1, hlt⟩ (0 : Fin 3) * 1 ≤ (i 0).val ∧ (i 0).val < win0_3.index ⟨2 * (i 0).val + 1, hlt⟩ (0 : Fin 3) * 1 + 1; omega
    | ⟨1, _⟩ => show win0_3.index ⟨2 * (i 0).val + 1, hlt⟩ (1 : Fin 3) * 256 ≤ (i 1).val ∧ (i 1).val < win0_3.index ⟨2 * (i 0).val + 1, hlt⟩ (1 : Fin 3) * 256 + 256; omega
    | ⟨2, _⟩ => show win0_3.index ⟨2 * (i 0).val + 1, hlt⟩ (2 : Fin 3) * 1024 ≤ (i 2).val ∧ (i 2).val < win0_3.index ⟨2 * (i 0).val + 1, hlt⟩ (2 : Fin 3) * 1024 + 1024; omega

end Cert.KernelIdeal.Whole

end
-- ==== Proof.Routing.lean ====
/-
  The routing around the grouped product: how tokens are brought into expert order and taken back.

  Each of the 4096 tokens names its expert in `gate`. A stable sort of the token numbers by expert gives `order`, the
  token sitting at each position of the expert-sorted list; sorting the token numbers again by `order` gives its inverse.
  Rows are fetched by such an index vector after the usual treatment of a negative index (4096 is added to it), the
  fetched [4096, 1024] rows are regrouped as [16, 256, 1024], and after the product the [16, 256, 1024] result is
  flattened back to [4096, 1024] and its rows fetched by the inverse.

  Both programs do exactly this with the same dimension numbers and the same comparison; what differs between them is only
  how the grouped product in the middle is computed. So the routing is stated ONCE, over the records a program states
  (the gather's dimension numbers, the sort's comparison, the shape relations), and is never opened: two programs whose
  records agree route identically, whatever the index vectors hold.
-/
import Idealize.ShloMosaic.PureOps
import Idealize.ShloMosaic.PureOps.Ideal
import proofs.«161444_j86715389706430_1_alg».proof.Proof.GroupedSpec

noncomputable section

namespace Cert.Grouped

open Idealize.ShloMosaic

/-- Token rows, before grouping and after ungrouping: [token, feature]. -/
abbrev sRows : Shape := ⟨2, ![4096, 1024]⟩
/-- One word per token. -/
abbrev sVec : Shape := ⟨1, ![4096]⟩
/-- The same as a column of start indices. -/
abbrev sCol : Shape := ⟨2, ![4096, 1]⟩
/-- A scalar. -/
abbrev sOne : Shape := ⟨0, ![]⟩

/-- What a program states of its routing: the row gather's dimension numbers, the sort's comparison, and the shape
    relations its broadcasts and reshapes rest on. -/
structure Routing where
  rowGather : GatherDims sRows sCol sRows
  before : BitVec 32 × BitVec 32 → BitVec 32 × BitVec 32 → BitVec 1
  scalarToVec : sOne.BroadcastsInDim sVec (![] : Fin 0 → Fin sVec.rank)
  vecToCol : sVec.BroadcastsInDim sCol (![0] : Fin 1 → Fin sCol.rank)
  group : sRows.ShapeCasts sTok
  ungroup : sTok.ShapeCasts sRows

namespace Routing

variable (R : Routing)

/-- The numbers 0 … 4095 sorted, stably, by the words `key`: position p holds the number of the p-th smallest key. -/
def sortedBy (key : IVec sVec 32) : IVec sVec 32 :=
  (Host.sort2 sVec 0 R.before key (iotaInDim sVec 32 0)).2

/-- An index vector as a column of start indices, a negative index taken from the end. -/
def startColumn (idx : IVec sVec 32) : IVec sCol 32 :=
  broadcastInDim sCol ![0] R.vecToCol
    (select (cmpi .slt idx (broadcastInDim sVec ![] R.scalarToVec (constantI sOne 32 0#32)))
      (addi idx (broadcastInDim sVec ![] R.scalarToVec (constantI sOne 32 4096#32))) idx)

/-- The tokens in expert order, grouped: [16, 256, 1024]. -/
def grouped (inp : sRows.Idx → EReal) (gate : IVec sVec 32) : sTok.Idx → EReal :=
  shapeCast sTok (Host.gather R.rowGather inp (R.startColumn (R.sortedBy gate))) R.group

/-- A grouped result taken back to token order: [4096, 1024]. -/
def restored (gate : IVec sVec 32) (Y : sTok.Idx → EReal) : sRows.Idx → EReal :=
  Host.gather R.rowGather (shapeCast sRows Y R.ungroup) (R.startColumn (R.sortedBy (R.sortedBy gate)))

/-- THE WHOLE LAYER: route, apply the two-layer grouped product, route back. -/
def layer (inp : sRows.Idx → EReal) (gate : IVec sVec 32) (W1 : sW1.Idx → EReal) (W2 : sW2.Idx → EReal) : sRows.Idx → EReal :=
  R.restored gate (out (R.grouped inp gate) W1 W2)

end Routing

end Cert.Grouped

end
-- ==== Proof.KernelLayer.lean ====
/-
  The kernel's whole program as one function of its four arguments.

  Before the kernel runs, the host sorts the tokens by expert, fetches their rows in that order, regroups them as
  [16, 256, 1024] and narrows the three float arrays to a shorter format, which at the ideal values changes nothing: the
  kernel finds the grouped tokens and the two weight arrays themselves. The kernel leaves the grouped product of those
  three in its result array. After it, the host flattens that array and fetches its rows by the inverse order. Read
  together: the program's result is the routed layer of its arguments, and the arguments end as they began.
-/
import proofs.«161444_j86715389706430_1_alg».proof.Proof.KernelWhole
import proofs.«161444_j86715389706430_1_alg».proof.Proof.Routing
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Layer

open Cert.KernelIdeal Cert.KernelIdeal.Gen

/-- The routing records this program states. -/
def routing : Grouped.Routing where
  rowGather := gather_S4096x1024_S4096x1_S4096x1024_1_0_n_n_0_1_11024
  before := comparator_i32_i32_d0
  scalarToVec := Gen.bcast_S_S4096
  vecToCol := Gen.bcast_S4096_S4096x1_0
  group := Gen.shapeCasts_S4096x1024_S16x256x1024
  ungroup := Gen.shapeCasts_S16x256x1024_S4096x1024

variable (m : (ℓ : Loc nD τ sig) → Buf (Elt Ideal) ℓ) (ρ : Dev nD → PrngReg)

/-- The kernel finds the tokens in expert order, grouped. -/
theorem tok_eq (c : Dev nD) :
    Whole.tok m c = routing.grouped (m ((c.tc : Thread nD τ).loc main_arg0)) (m ((c.tc : Thread nD τ).loc main_arg1)) := by
  show V m c main_v10 = _
  dsimp only [V, V0]
  simp only [hostOps0, hostOps0_1, hostOps0_2, List.flatten_cons, List.flatten_nil, List.append_nil, List.cons_append, List.nil_append]
  after_results
  rfl

/-- It finds the first-layer weights as given, -/
theorem w1_eq (c : Dev nD) : Whole.w1 m c = m ((c.tc : Thread nD τ).loc main_arg2) := by
  show V m c main_v11 = _
  dsimp only [V, V0]
  simp only [hostOps0, hostOps0_1, hostOps0_2, List.flatten_cons, List.flatten_nil, List.append_nil, List.cons_append, List.nil_append]
  after_results
  rfl

/-- and the second-layer weights as given. -/
theorem w2_eq (c : Dev nD) : Whole.w2 m c = m ((c.tc : Thread nD τ).loc main_arg3) := by
  show V m c main_v12 = _
  dsimp only [V, V0]
  simp only [hostOps0, hostOps0_1, hostOps0_2, List.flatten_cons, List.flatten_nil, List.append_nil, List.cons_append, List.nil_append]
  after_results
  rfl

/-- The host lines after the kernel read the kernel's result array, -/
theorem tail_result (c : Dev nD) :
    Pipeline.withArrays (cfgs 0).spec c (V0 m c) (fun w => (dats m 0 c).arrAt w (cfgs 0).N) (Proc.devRef .tc main_v13) = Grouped.out (Whole.tok m c) (Whole.w1 m c) (Whole.w2 m c) :=
  (Pipeline.withArrays_arr spec0 launch0.win.arr_inj c _ _ 3).trans (Whole.final m c)

/-- and the inverse order, computed before the kernel and untouched by it: the token numbers sorted by the order. -/
theorem tail_inverse (c : Dev nD) :
    Pipeline.withArrays (cfgs 0).spec c (V0 m c) (fun w => (dats m 0 c).arrAt w (cfgs 0).N) (Proc.devRef .tc main_v1) = routing.sortedBy (routing.sortedBy (m ((c.tc : Thread nD τ).loc main_arg1))) := by
  rw [Pipeline.withArrays_of_ne _ c (V0 m c) _ main_v1 (by exact (by decide : ∀ w, Pipeline.arrRef spec0 w ≠ main_v1))]
  show V m c main_v1 = _
  dsimp only [V, V0]
  simp only [hostOps0, hostOps0_1, hostOps0_2, List.flatten_cons, List.flatten_nil, List.append_nil, List.cons_append, List.nil_append]
  after_results
  rfl

/-- THE PROGRAM'S RESULT: the routed layer of the four arguments. -/
theorem result_eq (c : Dev nD) :
    Pipeline.afterTail₀ cfgs (dats m) 0 (V0 m) [hostOps1] c main_v21
      = routing.layer (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v21) = _
  after_results
  rw [tail_result m c, tail_inverse m c, tok_eq m c, w1_eq m c, w2_eq m c]
  rfl

/-- The run, read: every weakly fair execution ends with the result at the routed layer of the arguments and the
    arguments unchanged. -/
theorem run : θ_run defs (onTc (τ := τ) (main (F := Ideal))) ⟨m, fun _ => 0, ρ⟩ fun r => ∀ c : Dev nD,
      r.2.mem ((c.tc : Thread nD τ).loc main_v21)
        = routing.layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v21 (Pipeline.mem_restRefs_of main_v21 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Layer

end
-- ==== Proof.LibRowsByRows.lean ====
/-
  A BATCHED PRODUCT OF ROWS BY ROWS, read at an index.

  For two stacks A : [B, N, K] and C : [B, M, K] the product that keeps the leading axis as a batch axis and
  contracts the LAST axis of both — `einsum "bnk,bmk->bnm"`, sample by sample the matrix A_b · C_bᵀ — has at
  (b, n, m) the value Σ_k A(b, n, k) · C(b, m, k). This is stated once for the dimension numbers
  contracting [2] × [2], free [1] × [1], batch [0] × [0], and then for the two operations that carry them at the ideal
  values: the vector unit's matrix product into a zero accumulator, and the host's general dot product. Both are the same
  plain sum of extended reals (no rounding, no order), so a kernel's product of a block and a reference's product of
  the whole array agree entry by entry.
-/
import Idealize.ShloMosaic.PureOps.Ideal
import Idealize.ShloMosaic.PureOps.Ideal.Laws
import Idealize.ShloMosaic.Lib.ValueIdx

noncomputable section

open scoped BigOperators

namespace Cert.Lib.RowsByRows

open Idealize.ShloMosaic Idealize.ShloMosaic.ValueIdx

variable {B N M K : Nat}

/-- The dimension numbers of the batched rows-by-rows product over [B, N, K] and [B, M, K]; `w` is their
    well-formedness, which a program states of its literal shapes. -/
abbrev dims (w : DotDims.WF ⟨3, ![B, N, K]⟩ ⟨3, ![B, M, K]⟩ ⟨3, ![B, N, M]⟩ [2] [2] [1] [1] [0] [0]) :
    DotDims ⟨3, ![B, N, K]⟩ ⟨3, ![B, M, K]⟩ ⟨3, ![B, N, M]⟩ := ⟨[2], [2], [1], [1], [0], [0], w⟩

variable (w : DotDims.WF ⟨3, ![B, N, K]⟩ ⟨3, ![B, M, K]⟩ ⟨3, ![B, N, M]⟩ [2] [2] [1] [1] [0] [0])

/-- At output entry (b, n, m) and contracted coordinate c the left operand is read at (b, n, c). -/
theorem lhsIdx_eq (b : Fin B) (n : Fin N) (m : Fin M) (c : Fin K) :
    (dims w).lhsIdx (ix3 b n m) ((contrEquiv1 (dims w) K rfl rfl).symm c) = ix3 b n c := by
  have c3 := contrEquiv1_symm_val (dims w) K rfl rfl c
  funext ax; apply Fin.ext
  match ax with
  | ⟨0, _⟩ => simp [DotDims.lhsIdx]; rfl
  | ⟨1, _⟩ => simp [DotDims.lhsIdx]; rfl
  | ⟨2, _⟩ => simp [DotDims.lhsIdx]; exact c3

/-- And the right operand at (b, m, c). -/
theorem rhsIdx_eq (b : Fin B) (n : Fin N) (m : Fin M) (c : Fin K) :
    (dims w).rhsIdx (ix3 b n m) ((contrEquiv1 (dims w) K rfl rfl).symm c) = ix3 b m c := by
  have c3 := contrEquiv1_symm_val (dims w) K rfl rfl c
  funext ax; apply Fin.ext
  match ax with
  | ⟨0, _⟩ => simp [DotDims.rhsIdx]; rfl
  | ⟨1, _⟩ => simp [DotDims.rhsIdx]; rfl
  | ⟨2, _⟩ => simp [DotDims.rhsIdx]; exact c3

/-- The contraction's sum at (b, n, m), re-indexed by the contracted coordinate. -/
theorem contraction_sum (A : (⟨3, ![B, N, K]⟩ : Shape).Idx → EReal) (C : (⟨3, ![B, M, K]⟩ : Shape).Idx → EReal)
    (b : Fin B) (n : Fin N) (m : Fin M) :
    ∑ k : (dims w).contr.Idx, A ((dims w).lhsIdx (ix3 b n m) k) * C ((dims w).rhsIdx (ix3 b n m) k)
      = ∑ c : Fin K, A (ix3 b n c) * C (ix3 b m c) := by
  rw [← Equiv.sum_comp (contrEquiv1 (dims w) K rfl rfl).symm]
  refine Finset.sum_congr rfl fun c _ => ?_
  rw [lhsIdx_eq, rhsIdx_eq]

/-- The host's general dot product with these dimension numbers, at the ideal values, read at (b, n, m). -/
theorem dotGeneral_apply {φ₁ φ₂ : FTy} (prec : Option ContractPrecision)
    (A : FVec Ideal ⟨3, ![B, N, K]⟩ φ₁) (C : FVec Ideal ⟨3, ![B, M, K]⟩ φ₂) (b : Fin B) (n : Fin N) (m : Fin M) :
    Host.dotGeneral (dims w) prec A C (ix3 b n m) = ∑ c : Fin K, A (ix3 b n c) * C (ix3 b m c) := by
  show FloatOps.dotGeneral _ prec _ A C (ix3 b n m) = _
  rw [Ideal.dotGeneral_apply]
  exact contraction_sum w A C b n m

/-- The vector unit's matrix product with these dimension numbers into a zero accumulator, at the ideal values, read at
    (b, n, m): the same sum. -/
theorem matmul_zero_apply {φ₁ φ₂ : FTy} (prec : Option ContractPrecision)
    (A : FVec Ideal ⟨3, ![B, N, K]⟩ φ₁) (C : FVec Ideal ⟨3, ![B, M, K]⟩ φ₂) (b : Fin B) (n : Fin N) (m : Fin M) :
    matmul (dims w) prec A C (constant ⟨3, ![B, N, M]⟩ .f32 0x00000000#32) (ix3 b n m)
      = ∑ c : Fin K, A (ix3 b n c) * C (ix3 b m c) := by
  show FloatOps.matmul _ prec A C (constant (F := Ideal) ⟨3, ![B, N, M]⟩ .f32 0x00000000#32) (ix3 b n m) = _
  rw [Ideal.matmul_constant_zero_apply]
  exact contraction_sum w A C b n m

end Cert.Lib.RowsByRows

end
-- ==== Proof.ReferenceLayer.lean ====
/-
  The reference's whole program as one function of its four arguments.

  The reference routes the tokens exactly as the kernel's program does, and in the middle contracts twice on the host:
  the grouped tokens [16, 256, 1024] against the first-layer weights [16, 4096, 1024] over the feature axis, expert by
  expert, giving the hidden activations [16, 256, 4096]; then those against the second-layer weights [16, 1024, 4096] over
  the hidden axis. At the ideal values each contraction is the plain sum, so entry (e, c, o) of the second is
  Σ_h ( Σ_i X(e,c,i) · W1(e,h,i) ) · W2(e,o,h): the grouped product.
-/
import proofs.«161444_j86715389706430_1_alg».proof.Proof.Gen.ReferenceIdeal.Read
import proofs.«161444_j86715389706430_1_alg».proof.Proof.Routing
import proofs.«161444_j86715389706430_1_alg».proof.Proof.LibRowsByRows

noncomputable section

open scoped BigOperators

open Idealize.ShloMosaic Idealize.ShloMosaic.ValueIdx

namespace Cert.ReferenceIdeal.Layer

open Cert.ReferenceIdeal

/-- The routing records this program states. -/
def routing : Grouped.Routing where
  rowGather := gather_S4096x1024_S4096x1_S4096x1024_1_0_n_n_0_1_11024
  before := comparator_i32_i32_d0
  scalarToVec := Gen.bcast_S_S4096
  vecToCol := Gen.bcast_S4096_S4096x1_0
  group := Gen.shapeCasts_S4096x1024_S16x256x1024
  ungroup := Gen.shapeCasts_S16x256x1024_S4096x1024

/-- The first contraction's dimension numbers: expert by expert, rows against rows over the feature axis. -/
theorem firstDims : dot_S16x256x1024_S16x4096x1024_S16x256x4096_2_2_1_1_0_0
    = Cert.Lib.RowsByRows.dims (B := 16) (N := 256) (M := 4096) (K := 1024) Gen.dot_S16x256x1024_S16x4096x1024_S16x256x4096_2_2_1_1_0_0_wf := rfl
/-- The second's: expert by expert, rows against rows over the hidden axis. -/
theorem secondDims : dot_S16x256x4096_S16x1024x4096_S16x256x1024_2_2_1_1_0_0
    = Cert.Lib.RowsByRows.dims (B := 16) (N := 256) (M := 1024) (K := 4096) Gen.dot_S16x256x4096_S16x1024x4096_S16x256x1024_2_2_1_1_0_0_wf := rfl

/-- THE MIDDLE: the two host contractions are the grouped product. -/
theorem middle_eq (X : FVec Ideal S16x256x1024 .f32) (W1 : FVec Ideal S16x4096x1024 .f32) (W2 : FVec Ideal S16x1024x4096 .f32) :
    Host.dotGeneral dot_S16x256x4096_S16x1024x4096_S16x256x1024_2_2_1_1_0_0 none (Host.dotGeneral dot_S16x256x1024_S16x4096x1024_S16x256x4096_2_2_1_1_0_0 none X W1) W2 = Grouped.out X W1 W2 := by
  funext j
  obtain ⟨e, c, o, rfl⟩ : ∃ (e : Fin 16) (c : Fin 256) (o : Fin 1024), j = ix3 e c o := ⟨j 0, j 1, j 2, eq_ix3 j⟩
  rw [secondDims]
  refine (Cert.Lib.RowsByRows.dotGeneral_apply _ none _ W2 e c o).trans ?_
  show _ = ∑ h : Fin 4096, (∑ i : Fin 1024, X (ix3 e c i) * W1 (ix3 e h i)) * W2 (ix3 e o h)
  refine Finset.sum_congr rfl fun h _ => ?_
  refine congrArg (· * W2 (ix3 e o h)) ?_
  rw [firstDims]
  exact Cert.Lib.RowsByRows.dotGeneral_apply _ none X W1 e c h

/-- THE PROGRAM'S RESULT: the routed layer of the four arguments. -/
theorem result_eq (x0 : FVec Ideal S4096x1024 .f32) (x1 : IVec S4096 32) (x2 : FVec Ideal S16x4096x1024 .f32)
    (x3 : FVec Ideal S16x1024x4096 .f32) :
    Read.val_main_v19 (F := Ideal) x0 x1 x2 x3 = routing.layer x0 x1 x2 x3 := by
  unfold Read.val_main_v19 Read.val_main_v11 Read.val_main_v10 Read.val_main_v9
  rw [middle_eq]
  rfl

end Cert.ReferenceIdeal.Layer

end
-- ==== Proof.lean ====
/-
  A mixture-of-experts layer with two linear maps per expert and no activation between them, computed two ways.

  Sixteen experts share 4096 tokens, 256 each; `gate` names each token's expert. Both programs sort the tokens by expert
  (a stable sort of the token numbers, and the sort of those numbers again for the way back), fetch the token rows in
  expert order, regroup them as X : [16, 256, 1024], apply to every slot its expert's two matrices,

      y(e, c, o) = Σ_{h < 4096} ( Σ_{i < 1024} X(e,c,i) · W1(e,h,i) ) · W2(e,o,h),

  flatten the result and fetch its rows by the inverse order. They differ only in the middle. The reference contracts
  twice on the host. The kernel walks a grid of (expert, half of the hidden axis): each step forms the activations of 2048
  hidden units, sends them through the matching 2048 columns of the second layer and adds the outcome to a running total
  that the first half starts from zero; the second half writes the total out. On the extended reals, where a change of
  float format is the identity and every product into a zero accumulator is the plain sum, the total after the two halves
  is (0 + P₀) + P₁ with P_k the partial sum over hidden units 2048·k … 2048·k + 2047, and that is the sum over all 4096
  by commutativity and associativity of addition alone. So the two programs are ONE function of their arguments at the
  ideal values, for every value of the arrays: finiteness of the inputs is never used, and the index vectors are never
  looked into, since both programs treat them with the same operations.

  The three programs run, fault-free, with their arguments unchanged: the kernel's two readings by the run of its grid,
  the reference by the run of its host operations. The idealized kernel is the kernel's own text read at the ideal
  values: nothing was rewritten, so there is nothing to preserve.
-/
import proofs.«161444_j86715389706430_1_alg».proof.Defs
import proofs.«161444_j86715389706430_1_alg».proof.Proof.Gen.Kernel
import proofs.«161444_j86715389706430_1_alg».proof.Proof.Gen.Kernel.Skeleton
import proofs.«161444_j86715389706430_1_alg».proof.Proof.Gen.Kernel.Launch
import proofs.«161444_j86715389706430_1_alg».proof.Proof.Gen.Kernel.Points
import proofs.«161444_j86715389706430_1_alg».proof.Proof.Gen.Kernel.Frame
import proofs.«161444_j86715389706430_1_alg».proof.Proof.Gen.KernelIdeal
import proofs.«161444_j86715389706430_1_alg».proof.Proof.Gen.KernelIdeal.Skeleton
import proofs.«161444_j86715389706430_1_alg».proof.Proof.Gen.KernelIdeal.Launch
import proofs.«161444_j86715389706430_1_alg».proof.Proof.Gen.KernelIdeal.Points
import proofs.«161444_j86715389706430_1_alg».proof.Proof.Gen.KernelIdeal.Frame
import proofs.«161444_j86715389706430_1_alg».proof.Proof.Gen.ReferenceIdeal
import proofs.«161444_j86715389706430_1_alg».proof.Proof.Gen.ReferenceIdeal.Run
import proofs.«161444_j86715389706430_1_alg».proof.Proof.Gen.ReferenceIdeal.Read
import proofs.«161444_j86715389706430_1_alg».proof.Proof.Gen.Pre_finite_inputs
import proofs.«161444_j86715389706430_1_alg».proof.Proof.KernelLayer
import proofs.«161444_j86715389706430_1_alg».proof.Proof.ReferenceLayer
import Idealize.ShloMosaic.Adequacy
import Idealize.ShloMosaic.Init

noncomputable section

namespace Cert.Proof

open Idealize.ShloMosaic Idealize.SL.Sem

/-- The two programs state the same routing: the same gather dimension numbers, the same comparison. -/
theorem routing_agree : Cert.ReferenceIdeal.Layer.routing = Cert.KernelIdeal.Layer.routing := rfl

/-- The kernel as printed runs and leaves its arguments unchanged. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- And the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the ideal values both programs end with the routed two-layer grouped product of arguments that agree. -/
theorem algebraic : Cert.algebraic_KernelIdeal_ReferenceIdeal := by
  intro m ρ m' ρ' _ hagree
  refine ⟨fun c => Cert.KernelIdeal.Layer.routing.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), Cert.KernelIdeal.Layer.run m ρ, ?_⟩
  refine (θ_run Cert.ReferenceIdeal.defs _ _).mono (fun _ h c => ⟨(h c).1.trans ?_, (h c).2⟩) (Cert.ReferenceIdeal.Value.run (F := Ideal) m' ρ')
  rw [(hagree c).1, (hagree c).2.1, (hagree c).2.2.1, (hagree c).2.2.2]
  refine (Cert.ReferenceIdeal.Read.val_main_v19_eq _ _ _ _).trans ?_
  refine (Cert.ReferenceIdeal.Layer.result_eq _ _ _ _).trans ?_
  rw [routing_agree]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
